-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : IVec S2x800000 32) (main_arg2 : FVec F S128x128 .f32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S2000x128 : Shape := ⟨2, ![2000, 128]⟩

abbrev nBuf : Space → Nat
  | .hbm => 24
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S1x128, .f32⟩
  | .hbm, ⟨23, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | .hbm, ⟨26, _⟩ => ⟨S50000x128, .f32⟩
  | .hbm, ⟨27, _⟩ => ⟨S50000x128, .f32⟩
  | .hbm, ⟨28, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LayerSpec.lean ====
/-
  The graph-convolution layer's result as ONE function of its operands, index by index.

  Write `agg` for the neighbour aggregate (row `n` is the sum of the feature rows of the nodes that edges leaving `n`
  point at), `feats` for the node features, `wn` and `ws` for the neighbour and self weight matrices and `b` for the
  bias. Entry `(n, j)` of the layer's output is

      (∑ k, feats[n, k] · ws[k, j])  +  tanh ((∑ k, agg[n, k] · wn[k, j]) + b[j])

  on the extended reals: each of the two matrix products is a sum of 128 products along the shared axis, the bias is
  added to the neighbour product before the hyperbolic tangent, and the self product is the left summand of the final sum.
  Both programs compute exactly this expression — the same 128 products in each sum, the sums combined in the same
  order — so no algebraic law beyond re-indexing a finite sum is needed to compare them, and in particular nothing
  here depends on the entries being finite.

  The expression for row `n` reads only row `n` of `agg` and of `feats`. Hence a tile made of consecutive rows of the
  two arrays has, at its local row `p`, the entry the whole arrays have at the row that `p` stands for (`entry_congr`):
  computing the layer tile by tile and computing it at once give the same array.
-/
import Idealize.ShloMosaic.Lib.ValueIdx
import Idealize.ShloMosaic.PureOps.Ideal

noncomputable section

open scoped BigOperators

namespace Cert.Layer

open Idealize.ShloMosaic Idealize.ShloMosaic.ValueIdx

/-- A matrix product read at `(n, j)`: the sum over the shared axis of 128 entries of row `n` of `x` times column `j`
    of `w`. The row count is a parameter: the same expression describes a 2000-row tile and the whole 50000-row array. -/
def rowDot {rows : ℕ} (x : FVec Ideal ⟨2, ![rows, 128]⟩ .f32) (w : FVec Ideal ⟨2, ![128, 128]⟩ .f32)
    (n : Fin rows) (j : Fin 128) : EReal :=
  ∑ k : Fin 128, x (ix2 n k) * w (ix2 k j)

/-- Entry `(n, j)` of the layer's output from row `n` of the aggregate and of the features: the self product plus the
    hyperbolic tangent of the neighbour product shifted by the bias. -/
def entry {rows : ℕ} (agg feats : FVec Ideal ⟨2, ![rows, 128]⟩ .f32) (wn ws : FVec Ideal ⟨2, ![128, 128]⟩ .f32)
    (b : Fin 128 → EReal) (n : Fin rows) (j : Fin 128) : EReal :=
  rowDot feats ws n j + Ideal.tanh (rowDot agg wn n j + b j)

/-- The layer's whole output array: `entry` at the two coordinates of each index. -/
def out (agg feats : FVec Ideal ⟨2, ![50000, 128]⟩ .f32) (wn ws : FVec Ideal ⟨2, ![128, 128]⟩ .f32)
    (b : Fin 128 → EReal) : FVec Ideal ⟨2, ![50000, 128]⟩ .f32 :=
  fun i => entry agg feats wn ws b (i 0) (i 1)

/-- Two products agree at `(p, j)` and `(n, j)` when row `p` of the one left operand is row `n` of the other and the
    right operands agree entry by entry. -/
theorem rowDot_congr {rows R : ℕ} (xT : FVec Ideal ⟨2, ![rows, 128]⟩ .f32) (x : FVec Ideal ⟨2, ![R, 128]⟩ .f32)
    (wT w : FVec Ideal ⟨2, ![128, 128]⟩ .f32) (p : Fin rows) (n : Fin R) (hx : ∀ k, xT (ix2 p k) = x (ix2 n k))
    (hw : ∀ k j, wT (ix2 k j) = w (ix2 k j)) (j : Fin 128) :
    rowDot xT wT p j = rowDot x w n j :=
  Finset.sum_congr rfl fun k _ => by rw [hx k, hw k j]

/-- An entry at row `p` of tiles whose row `p` is row `n` of the two arrays, with weights and bias that agree entry by
    entry, is the arrays' entry at row `n`. -/
theorem entry_congr {rows R : ℕ} (aggT featsT : FVec Ideal ⟨2, ![rows, 128]⟩ .f32) (agg feats : FVec Ideal ⟨2, ![R, 128]⟩ .f32)
    (wnT wsT wn ws : FVec Ideal ⟨2, ![128, 128]⟩ .f32) (bT b : Fin 128 → EReal) (p : Fin rows) (n : Fin R)
    (ha : ∀ k, aggT (ix2 p k) = agg (ix2 n k)) (hf : ∀ k, featsT (ix2 p k) = feats (ix2 n k))
    (hwn : ∀ k j, wnT (ix2 k j) = wn (ix2 k j)) (hws : ∀ k j, wsT (ix2 k j) = ws (ix2 k j)) (hb : ∀ j, bT j = b j)
    (j : Fin 128) :
    entry aggT featsT wnT wsT bT p j = entry agg feats wn ws b n j := by
  unfold entry
  rw [rowDot_congr featsT feats wsT ws p n hf hws j, rowDot_congr aggT agg wnT wn p n ha hwn j, hb j]

end Cert.Layer

end
-- ==== Proof.ReferenceLayer.lean ====
/-
  The reference program computes the layer's function.

  The reference's last stage is the sum of the self product `feats · ws` and the hyperbolic tangent of the neighbour product
  `agg · wn` shifted by the bias row, where `agg` is the stage that scatter-adds the gathered feature rows. Each matrix
  product, read at `(n, j)`, is the sum over the shared axis of `x[n, k] · w[k, j]`, and the twice-broadcast bias read at
  `(n, j)` is `b[j]`; so the stage, index by index, is `Layer.out` of `agg` and the four other arguments. The aggregate
  stage itself is never opened: both programs build it by the same operations from the same two arguments.
-/
import proofs.«129296_j9457517986513_1_alg».proof.Proof.Gen.ReferenceIdeal.Read
import proofs.«129296_j9457517986513_1_alg».proof.Proof.LayerSpec

noncomputable section

open scoped BigOperators

namespace Cert.ReferenceIdeal.Layer

open Cert.ReferenceIdeal Cert.ReferenceIdeal.Read Idealize.ShloMosaic Idealize.ShloMosaic.ValueIdx

/-- The left operand's index of a product at output index `i` and shared coordinate `k` is `(i 0, k)`. -/
theorem lidx_eq (i : S50000x128.Idx) (k : Fin 128) : lidx_main_v19 i k = ix2 (i 0) k :=
  funext fun a => by match a with | ⟨0, _⟩ => rfl | ⟨1, _⟩ => rfl

/-- The right operand's index is `(k, i 1)`. -/
theorem ridx_eq (i : S50000x128.Idx) (k : Fin 128) : ridx_main_v19 i k = ix2 k (i 1) :=
  funext fun a => by match a with | ⟨0, _⟩ => rfl | ⟨1, _⟩ => rfl

/-- The bias, broadcast first to a row and then down the rows, read at `i` is the bias at the column of `i`. -/
theorem bias_idx_eq (i : S50000x128.Idx) : idx_main_v15 (idx_main_v16 i) = ix1 (i 1) :=
  funext fun a => by match a with | ⟨0, _⟩ => rfl

/-- The reference's result stage is the layer's function of the aggregate stage and the arguments. -/
theorem result_eq (x0 : FVec Ideal S50000x128 .f32) (x1 : (⟨S2x800000, .i32⟩ : BufTy).Contents (Elt Ideal))
    (x2 x3 : FVec Ideal S128x128 .f32) (x4 : FVec Ideal S128 .f32) :
    val_main_v20 (F := Ideal) x0 x1 x2 x3 x4
      = Cert.Layer.out (val_main_v13 (F := Ideal) x0 x1) x0 x2 x3 (fun j => x4 (ix1 j)) := by
  funext i
  rw [val_main_v20_apply, val_main_v19_apply, val_main_v18_apply, val_main_v17_apply, val_main_v14_apply,
    val_main_v16_apply, val_main_v15_apply]
  simp only [lidx_eq, ridx_eq, bias_idx_eq, show ∀ k, lidx_main_v14 i k = ix2 (i 0) k from lidx_eq i,
    show ∀ k, ridx_main_v14 i k = ix2 k (i 1) from ridx_eq i, Ideal.addf_def, Ideal.hostUnary_tanh_def]
  unfold Cert.Layer.out Cert.Layer.entry Cert.Layer.rowDot
  rfl

end Cert.ReferenceIdeal.Layer

end
-- ==== Proof.TileLayer.lean ====
/-
  One tile of the layer, as the kernel body computes it.

  The body loads a 2000-row tile of the neighbour aggregate and of the node features, the two 128 × 128 weight matrices
  and the bias as a 1 × 128 row, narrows the four matrix operands to bf16 (the identity on extended reals), multiplies
  each tile by its weight matrix into a zero accumulator, adds the bias row — broadcast down the 2000 rows — to the
  neighbour product, applies the hyperbolic tangent, and adds the result to the self product. A product into the zero
  accumulator, read at `(p, q)`, is the sum over the shared axis of `x[p, k] · w[k, q]`: the contraction runs over one axis
  of extent 128, whose index is identified with `Fin 128`. So the stored value at `(p, q)` is `Layer.entry` of the
  five loaded blocks at local row `p` and column `q`.
-/
import proofs.«129296_j9457517986513_1_alg».proof.Proof.Gen.KernelIdeal.Skeleton
import proofs.«129296_j9457517986513_1_alg».proof.Proof.LayerSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## The product's operand indices, axis by axis -/

/-- The left operand is read at the output's row … -/
theorem lhs_axis0 (i : S2000x128.Idx) (s : dot_S2000x128_S128x128_S2000x128_1_0_0_1_n_n.contr.Idx) :
    (dot_S2000x128_S128x128_S2000x128_1_0_0_1_n_n.lhsIdx i s 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … and at the shared coordinate; -/
theorem lhs_axis1 (i : S2000x128.Idx) (s : dot_S2000x128_S128x128_S2000x128_1_0_0_1_n_n.contr.Idx) :
    (dot_S2000x128_S128x128_S2000x128_1_0_0_1_n_n.lhsIdx i s 1).val = (s ⟨0, by decide⟩).val :=
  dot_S2000x128_S128x128_S2000x128_1_0_0_1_n_n.lhsIdx_val_of_single rfl i s
/-- the right operand at the shared coordinate … -/
theorem rhs_axis0 (i : S2000x128.Idx) (s : dot_S2000x128_S128x128_S2000x128_1_0_0_1_n_n.contr.Idx) :
    (dot_S2000x128_S128x128_S2000x128_1_0_0_1_n_n.rhsIdx i s 0).val = (s ⟨0, by decide⟩).val :=
  dot_S2000x128_S128x128_S2000x128_1_0_0_1_n_n.rhsIdx_val_of_single rfl i s
/-- … and at the output's column. -/
theorem rhs_axis1 (i : S2000x128.Idx) (s : dot_S2000x128_S128x128_S2000x128_1_0_0_1_n_n.contr.Idx) :
    (dot_S2000x128_S128x128_S2000x128_1_0_0_1_n_n.rhsIdx i s 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-! ## A tile times a weight matrix, read at an entry -/

/-- A 2000 × 128 tile times a 128 × 128 matrix into the zero accumulator, at `(p, q)`: the sum over `k` of
    `l[p, k] · r[k, q]`, whatever the operands' formats. -/
theorem product_apply {φ₁ φ₂ : FTy} (l : FVec Ideal S2000x128 φ₁) (r : FVec Ideal S128x128 φ₂) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The stored value at an entry -/

/-- What the body stores at `(p, q)` of the output tile is the layer's entry of the five loaded blocks there, the
    bias read from the one row of its block. -/
theorem stored_apply (x0 x1 : Vec Ideal S2000x128 .f32) (x2 x3 : Vec Ideal S128x128 .f32) (x4 : Vec Ideal S1x128 .f32)
    (p : Fin 2000) (q : Fin 128) :
    k0_pay1 (F := Ideal) x0 x1 x2 x3 x4 (ix2 p q)
      = Cert.Layer.entry x0 x1 x2 x3 (fun j => x4 (ix2 (0 : Fin 1) j)) p q := by
  unfold k0_pay1
  rw [addf_apply, product_apply]
  simp only [Idealize.ShloMosaic.tanh, Ideal.tanh_def]
  rw [addf_apply, product_apply, broadcastTo_1b_ab_apply, shapeCast_self, shapeCast_self]
  unfold Cert.Layer.entry Cert.Layer.rowDot
  simp only [truncf_apply]

end Cert.KernelIdeal.Tile

end
-- ==== Proof.ArrayLayer.lean ====
/-
  From tiles to the whole array.

  The grid has 25 points. At point `t` the pipeline hands the body rows `2000·t … 2000·t + 1999` of the neighbour aggregate and
  of the node features, the two weight matrices and the bias row whole, and writes the body's 2000 × 128 result back
  to the same rows of the output. The layer's entry at a row reads only that row of the aggregate and of the features, so
  what point `t` writes back is rows `2000·t …` of `Layer.out` of the whole arrays; the 25 row ranges tile the
  50000 rows (row `r` lies in the range of point `r / 2000`), so after the run the output array is `Layer.out` of the
  arrays as the region found them.

  Where an array's position inside a block matters, it is stated for the block's index embedding alone, and a block is
  read off an ARBITRARY family of array contents: the contents the region actually finds are substituted last.
-/
import proofs.«129296_j9457517986513_1_alg».proof.Proof.Gen.KernelIdeal.Value
import proofs.«129296_j9457517986513_1_alg».proof.Proof.TileLayer

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

/-! ## Which block each window is on -/

theorem zero_offsets : (![0, 0] : Fin 2 → Nat) = fun _ => 0 := funext fun a => by fin_cases a <;> rfl

/-- At point `t` the two row-tiled inputs and the output are on row block `t`, the weights and the bias on their only
    block (decided over the 25 points). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 25 := (show t.val < grid0.N from t.isLt).trans_eq N_0

/-- The array row that local row `p` of point `t`'s tiles stands for. -/
def rowOf (t : Fin cfg0.N) (p : Fin 2000) : Fin 50000 := ⟨t.val * 2000 + p.val, by have := point_lt t; have := p.isLt; omega⟩

/-! ## Where a block's entries sit in its array -/

/-- Local entry `(p, k)` of point `t`'s aggregate block is entry `(rowOf t p, k)` of the aggregate array; -/
theorem agg_index (t : Fin cfg0.N) (p : Fin 2000) (k : Fin 128) :
    ((cfg0.win 0).blk t).view.emb (ix2 p k) = (ix2 (rowOf t p) k : S50000x128.Idx) := by
  obtain ⟨e0, e1, -⟩ := block_indices t
  refine funext fun a => Fin.ext ?_
  match a with
  | ⟨0, _⟩ => show win0_0.index t (0 : Fin 2) * 2000 + 1 * p.val = t.val * 2000 + p.val; omega
  | ⟨1, _⟩ => show win0_0.index t (1 : Fin 2) * 128 + 1 * k.val = k.val; omega

/-- the same for the feature block; -/
theorem feat_index (t : Fin cfg0.N) (p : Fin 2000) (k : Fin 128) :
    ((cfg0.win 1).blk t).view.emb (ix2 p k) = (ix2 (rowOf t p) k : S50000x128.Idx) := by
  obtain ⟨-, -, e0, e1, -⟩ := block_indices t
  refine funext fun a => Fin.ext ?_
  match a with
  | ⟨0, _⟩ => show win0_1.index t (0 : Fin 2) * 2000 + 1 * p.val = t.val * 2000 + p.val; omega
  | ⟨1, _⟩ => show win0_1.index t (1 : Fin 2) * 128 + 1 * k.val = k.val; omega

/-- the weight blocks and the bias block are their whole arrays; -/
theorem wn_index (t : Fin cfg0.N) (k j : Fin 128) :
    ((cfg0.win 2).blk t).view.emb (ix2 k j) = (ix2 k j : S128x128.Idx) := by
  obtain ⟨-, -, -, -, e0, e1, -⟩ := block_indices t
  refine funext fun a => Fin.ext ?_
  match a with
  | ⟨0, _⟩ => show win0_2.index t (0 : Fin 2) * 128 + 1 * k.val = k.val; omega
  | ⟨1, _⟩ => show win0_2.index t (1 : Fin 2) * 128 + 1 * j.val = j.val; omega

theorem ws_index (t : Fin cfg0.N) (k j : Fin 128) :
    ((cfg0.win 3).blk t).view.emb (ix2 k j) = (ix2 k j : S128x128.Idx) := by
  obtain ⟨-, -, -, -, -, -, e0, e1, -⟩ := block_indices t
  refine funext fun a => Fin.ext ?_
  match a with
  | ⟨0, _⟩ => show win0_3.index t (0 : Fin 2) * 128 + 1 * k.val = k.val; omega
  | ⟨1, _⟩ => show win0_3.index t (1 : Fin 2) * 128 + 1 * j.val = j.val; omega

theorem bias_index (t : Fin cfg0.N) (j : Fin 128) :
    ((cfg0.win 4).blk t).view.emb (ix2 (0 : Fin 1) j) = (ix2 (0 : Fin 1) j : S1x128.Idx) := by
  obtain ⟨-, -, -, -, -, -, -, -, e0, e1, -⟩ := block_indices t
  refine funext fun a => Fin.ext ?_
  match a with
  | ⟨0, _⟩ => show win0_4.index t (0 : Fin 2) * 1 + 1 * 0 = 0; omega
  | ⟨1, _⟩ => show win0_4.index t (1 : Fin 2) * 128 + 1 * j.val = j.val; omega

/-- and local entry `(p, q)` of point `t`'s output block is entry `(rowOf t p, q)` of the output array. -/
theorem out_index (t : Fin cfg0.N) (p : Fin 2000) (q : Fin 128) :
    ((cfg0.win 5).blk t).view.emb (ix2 p q) = (ix2 (rowOf t p) q : S50000x128.Idx) := by
  obtain ⟨-, -, -, -, -, -, -, -, -, -, e0, e1⟩ := block_indices t
  refine funext fun a => Fin.ext ?_
  match a with
  | ⟨0, _⟩ => show win0_5.index t (0 : Fin 2) * 2000 + 1 * p.val = t.val * 2000 + p.val; omega
  | ⟨1, _⟩ => show win0_5.index t (1 : Fin 2) * 128 + 1 * q.val = q.val; omega

/-! ## The body's result on the blocks of ANY arrays -/

/-- The layer's output of a family of array contents: the aggregate, features, weights and bias row it holds. -/
abbrev layerOf {c : Dev nD} (W : (b : Ref sig .tc) → Buf (Elt Ideal) ((c : Thread nD τ).loc b)) : FVec Ideal S50000x128 .f32 :=
  Cert.Layer.out (W main_v13) (W main_arg0) (W main_arg2) (W main_arg3) (fun j => (W main_v14 : FVec Ideal S1x128 .f32) (ix2 (0 : Fin 1) j))

/-- Whatever the arrays hold, the body's stored value at `(p, q)` on point `t`'s blocks of them is the layer's output of
    the arrays at `(rowOf t p, q)`. -/
theorem block_entry (c : Dev nD) (W : (b : Ref sig .tc) → Buf (Elt Ideal) ((c : Thread nD τ).loc b))
    (t : Fin cfg0.N) (p : Fin 2000) (q : Fin 128) :
    k0_pay1 (F := Ideal)
        (((cfg0.win 0).blk t).view.read (Elt Ideal) (W (Pipeline.arrRef spec0 0)))
        (((cfg0.win 1).blk t).view.read (Elt Ideal) (W (Pipeline.arrRef spec0 1)))
        (((cfg0.win 2).blk t).view.read (Elt Ideal) (W (Pipeline.arrRef spec0 2)))
        (((cfg0.win 3).blk t).view.read (Elt Ideal) (W (Pipeline.arrRef spec0 3)))
        (((cfg0.win 4).blk t).view.read (Elt Ideal) (W (Pipeline.arrRef spec0 4))) (ix2 p q)
      = layerOf W (ix2 (rowOf t p) q) :=
  (Tile.stored_apply _ _ _ _ _ p q).trans
    (Cert.Layer.entry_congr _ _ (W main_v13) (W main_arg0) _ _ (W main_arg2) (W main_arg3) _
      (fun j => (W main_v14 : FVec Ideal S1x128 .f32) (ix2 (0 : Fin 1) j)) p (rowOf t p)
      (fun k => by rw [View.read_apply, agg_index]; rfl)
      (fun k => by rw [View.read_apply, feat_index]; rfl)
      (fun k j => by rw [View.read_apply, wn_index]; rfl)
      (fun k j => by rw [View.read_apply, ws_index]; rfl)
      (fun j => by rw [View.read_apply, bias_index]; rfl) q)

variable (m : (ℓ : Loc nD τ sig) → Buf (Elt Ideal) ℓ) (ρ : Dev nD → PrngReg)

/-! ## What a point writes back -/

/-- Point `t` writes back rows `2000·t …` of the layer's output of the arrays as the region finds them. -/
theorem flushed_eq (c : Dev nD) (t : Fin cfg0.N) :
    (dats m 0 c).flushed 5 t = ((cfg0.win 5).blk t).view.read (Elt Ideal) (layerOf (V m c)) := by
  rw [Value.flushed5]
  unfold out0_5
  rw [View.canon_unit_zero zero_offsets]
  simp only [View.ld_unit_zero (S := S2000x128) zero_offsets, View.ld_unit_zero (S := S128x128) zero_offsets,
    View.ld_unit_zero (S := S1x128) zero_offsets]
  funext y
  obtain ⟨p, q, rfl⟩ : ∃ (p : Fin 2000) (q : Fin 128), y = ix2 p q := ⟨y 0, y 1, eq_ix2 y⟩
  rw [View.read_apply, out_index]
  show k0_pay1 (F := Ideal) (iblk m c 0 t) (iblk m c 1 t) (iblk m c 2 t) (iblk m c 3 t) (iblk m c 4 t) (ix2 p q) = _
  exact block_entry c (V m c) t p q

/-! ## The row ranges tile the array -/

theorem mem_tile (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v15).slice (win0_5.rect t)).set ↔ _
  rw [View.set_slice_whole, Rect.mem_set_unit]
  exact Iff.rfl

/-- Every index of the output array lies in the block of the point its row divided by 2000 names. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : (i 0).val / 2000 < cfg0.N := by show _ < grid0.N; rw [N_0]; omega
  obtain ⟨-, -, -, -, -, -, -, -, -, -, e0, e1⟩ := block_indices ⟨(i 0).val / 2000, hN⟩
  refine ⟨⟨(i 0).val / 2000, hN⟩, flush0_5 _, ?_⟩
  rw [mem_tile]
  intro a
  match a with
  | ⟨0, _⟩ =>
    show win0_5.index ⟨(i 0).val / 2000, hN⟩ (0 : Fin 2) * 2000 ≤ (i 0).val ∧ (i 0).val < win0_5.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, hN⟩ (1 : Fin 2) * 128 ≤ (i 1).val ∧ (i 1).val < win0_5.index ⟨(i 0).val / 2000, hN⟩ (1 : Fin 2) * 128 + 128
    rw [e1]; omega

/-! ## The output array after the run -/

/-- After the run the output array is the layer's output of the arrays as the region found them. -/
theorem final (c : Dev nD) : (dats m 0 c).arrAt 5 cfg0.N = layerOf (V m c) :=
  (dats m 0 c).arrAt_eq_of_cover 5 (layerOf (V m c)) (fun t _ => flushed_eq m c t) covered

end Cert.KernelIdeal.Whole

end
-- ==== Proof.HostPrefix.lean ====
/-
  What the region finds in the two arrays the host computes before it.

  Before the kernel runs, the host slices the two rows of the edge list, wraps negative target indices by the node
  count, gathers the feature rows of the targets and scatter-adds them into a zero array at the source indices: the
  neighbour aggregate. The reference program computes its aggregate by the very same operations on the same two
  arguments, so the array the region finds is the reference's aggregate stage — an identity of terms, the stage never
  opened. The host also reshapes the 128 biases to one 1 × 128 row, whose entry `(0, j)` is bias `j`.
-/
import proofs.«129296_j9457517986513_1_alg».proof.Proof.Gen.KernelIdeal.Frame
import proofs.«129296_j9457517986513_1_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.HostPrefix

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The aggregate array the region finds is the reference's aggregate stage of the node features and the edge list. -/
theorem agg_eq (c : Dev nD) :
    (V m c main_v13 : FVec Ideal S50000x128 .f32)
      = Cert.ReferenceIdeal.Read.val_main_v13 (F := Ideal) (m ((c : Thread nD τ).loc main_arg0)) (m ((c : Thread nD τ).loc main_arg1)) := by
  dsimp only [V, hostOps0]
  after_results
  rfl

/-- The bias row the region finds is the bias vector reshaped … -/
theorem bias_row_eq (c : Dev nD) :
    (V m c main_v14 : FVec Ideal S1x128 .f32)
      = shapeCast S1x128 (m ((c : Thread nD τ).loc main_arg4) : FVec Ideal S128 .f32) shapeCasts_S128_S1x128 := by
  dsimp only [V, hostOps0]
  after_results
  rfl

/-- … so its entry `(0, j)` is bias `j`. -/
theorem bias_entry (c : Dev nD) (j : Fin 128) :
    (V m c main_v14 : FVec Ideal S1x128 .f32) (ix2 (0 : Fin 1) j)
      = (m ((c : Thread nD τ).loc main_arg4) : FVec Ideal S128 .f32) (ix1 j) := by
  rw [bias_row_eq]
  exact shapeCast_apply _ shapeCasts_S128_S1x128 _ _ (by
    rw [Shape.rowMajor_val_two, Shape.rowMajor_val_one]
    show j.val = 0 * 128 + j.val
    omega)

end Cert.KernelIdeal.HostPrefix

end
-- ==== Proof.KernelLayer.lean ====
/-
  The kernel program computes the layer's function of its arguments.

  After the run the output array is the layer's output of the arrays as the region finds them (the tiles put together).
  The region finds the node features and the two weight matrices as launched (no host operation writes them), the
  aggregate array as the reference's aggregate stage of the features and the edge list, and the bias as a 1 × 128 row
  whose entry `(0, j)` is bias `j`. Substituting each of the five operands gives the output array as `Layer.out` of the
  aggregate stage and the arguments — the same term the reference's result is.
-/
import proofs.«129296_j9457517986513_1_alg».proof.Proof.ArrayLayer
import proofs.«129296_j9457517986513_1_alg».proof.Proof.HostPrefix

noncomputable section

namespace Cert.Layer

open Idealize.ShloMosaic

/-- The layer's output depends on its five operands only through their values. -/
theorem out_congr {agg agg' feats feats' : FVec Ideal ⟨2, ![50000, 128]⟩ .f32} {wn wn' ws ws' : FVec Ideal ⟨2, ![128, 128]⟩ .f32}
    {b b' : Fin 128 → EReal} (h₁ : agg = agg') (h₂ : feats = feats') (h₃ : wn = wn') (h₄ : ws = ws') (h₅ : b = b') :
    out agg feats wn ws b = out agg' feats' wn' ws' b' := by
  subst h₁ h₂ h₃ h₄ h₅; rfl

end Cert.Layer

namespace Cert.KernelIdeal.Whole

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- After the run the output array is the layer's output of the reference's aggregate stage of the features and the
    edge list, the features, the two weight matrices and the bias, all as launched. -/
theorem result_eq (c : Dev nD) :
    (dats m 0 c).arrAt 5 cfg0.N
      = Cert.Layer.out
          (Cert.ReferenceIdeal.Read.val_main_v13 (F := Ideal) (m ((c : Thread nD τ).loc main_arg0)) (m ((c : Thread nD τ).loc main_arg1)))
          (m ((c : Thread nD τ).loc main_arg0)) (m ((c : Thread nD τ).loc main_arg2)) (m ((c : Thread nD τ).loc main_arg3))
          (fun j => (m ((c : Thread nD τ).loc main_arg4) : FVec Ideal S128 .f32) (ix1 j)) :=
  (final m c).trans
    (Cert.Layer.out_congr (HostPrefix.agg_eq m c) (V_main_arg0 m c) (V_main_arg2 m c) (V_main_arg3 m c)
      (funext fun j => HostPrefix.bias_entry m c j))

end Cert.KernelIdeal.Whole

end
-- ==== Proof.lean ====
/-
  One graph-convolution layer, computed two ways, gives the same array on the extended reals.

  Both programs first build the neighbour aggregate `agg` on the host: the feature rows of the edges' target nodes
  (negative targets wrapped by the node count) are gathered and scatter-added, at the edges' source nodes, into a zero
  array. The reference then computes `feats · ws + tanh (agg · wn + b)` with two whole 50000 × 128 by 128 × 128 products. The kernel
  computes the same expression 2000 rows at a time: each of 25 grid points multiplies its tile of `feats` and of `agg` by
  the weight matrices (after narrowing the operands to bf16, the identity on extended reals), adds the bias row to the
  neighbour product, applies the hyperbolic tangent and adds the self product, in the reference's order.

  Entry `(n, j)` of either result is `(∑ k, feats[n,k]·ws[k,j]) + tanh ((∑ k, agg[n,k]·wn[k,j]) + b[j])` (`Layer.out`): it reads
  only row `n` of `feats` and `agg`, so the 25 tiles put together are the whole array, and the two aggregates are one
  term of the same two arguments. No law of arithmetic beyond re-indexing the two finite sums is used, so the inputs'
  finiteness is never opened. The three programs' runs (termination, no fault, arguments unchanged) are the generated
  frames and the generated run of the reference; the idealization rewrote no operation, so there is nothing to preserve.
-/
import proofs.«129296_j9457517986513_1_alg».proof.Defs
import proofs.«129296_j9457517986513_1_alg».proof.Proof.Gen.Kernel
import proofs.«129296_j9457517986513_1_alg».proof.Proof.Gen.Kernel.Skeleton
import proofs.«129296_j9457517986513_1_alg».proof.Proof.Gen.Kernel.Launch
import proofs.«129296_j9457517986513_1_alg».proof.Proof.Gen.Kernel.Points
import proofs.«129296_j9457517986513_1_alg».proof.Proof.Gen.Kernel.Frame
import proofs.«129296_j9457517986513_1_alg».proof.Proof.Gen.KernelIdeal
import proofs.«129296_j9457517986513_1_alg».proof.Proof.Gen.KernelIdeal.Skeleton
import proofs.«129296_j9457517986513_1_alg».proof.Proof.Gen.KernelIdeal.Launch
import proofs.«129296_j9457517986513_1_alg».proof.Proof.Gen.KernelIdeal.Points
import proofs.«129296_j9457517986513_1_alg».proof.Proof.Gen.KernelIdeal.Frame
import proofs.«129296_j9457517986513_1_alg».proof.Proof.Gen.ReferenceIdeal
import proofs.«129296_j9457517986513_1_alg».proof.Proof.Gen.KernelIdeal.Value
import proofs.«129296_j9457517986513_1_alg».proof.Proof.Gen.ReferenceIdeal.Run
import proofs.«129296_j9457517986513_1_alg».proof.Proof.Gen.ReferenceIdeal.Read
import proofs.«129296_j9457517986513_1_alg».proof.Proof.Gen.Pre_finite_inputs
import proofs.«129296_j9457517986513_1_alg».proof.Proof.ReferenceLayer
import proofs.«129296_j9457517986513_1_alg».proof.Proof.KernelLayer
import Idealize.ShloMosaic.Adequacy
import Idealize.ShloMosaic.Init

noncomputable section

namespace Cert.Proof

open Idealize.ShloMosaic Idealize.SL.Sem

/-- The kernel as printed runs and leaves its arguments unchanged: its generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both programs end with the layer's output of the aggregate stage and
    the arguments: the kernel's output array by the tiles put together, the reference's result stage index by index. -/
theorem algebraic : Cert.algebraic_KernelIdeal_ReferenceIdeal := by
  intro m ρ m' ρ' _ hagree
  refine ⟨_, (θ_run Cert.KernelIdeal.defs _ _).mono
      (fun _ h c => ⟨(h c).1.trans (Cert.KernelIdeal.Whole.result_eq m c), (h c).2⟩)
      (Cert.KernelIdeal.Value.run_blocks m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.Layer.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
